-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 77
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x128, .f32⟩
  | .hbm, ⟨30, _⟩ => ⟨S128x128, .f32⟩
  | .hbm, ⟨31, _⟩ => ⟨S50000x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S50000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S50000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S128 : S128.ShapeCasts S128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S128x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call1_cst : Ref sig .tc := ⟨.hbm, 106, rfl⟩
abbrev main_call1_v0 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelCarry.lean ====
/-
  Which buffers keep their contents across the stretches of the kernel program's @main.

  @main alternates host stretches and regions; the contents of the core's buffers at the eight boundaries are the folds
  `W0` (the launch memory), `W1`, …, `W8`. A buffer that no operation of a host stretch writes has the same contents after
  the stretch as before it; a buffer that is not one of a region's arrays has the same contents after the region as before it.
  Chained from the launch, these say that an argument array, or a table the first stretch computed, still holds at a later
  boundary what it held when it was last written.
-/
import proofs.«154165_j23673859736036_1_alg».proof.Proof.KernelIdealFrameP

set_option maxRecDepth 16384

noncomputable section

namespace Cert.KernelIdeal.Carry

open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (ρ : Dev nD → PrngReg)

/-- No operation of the list writes the buffer. -/
abbrev NoWrite (ops : List (HloOp τ sig (Elt F))) (b : Ref sig .tc) : Prop :=
  ops.Forall fun op => Proc.devRef (τ := τ) .tc b ∉ op.writes

/-- Decides `NoWrite` for a literal stretch and a literal buffer: each operation writes one buffer, another one. -/
macro "no_write" : tactic => `(tactic| (
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## One step at a time -/

theorem w1 (c : Dev nD) (b : Ref sig .tc) (h : NoWrite (F := F) hostOps0 b) :
    W1 m ρ c (Proc.devRef .tc b) = m ((c : Thread nD τ).loc b) :=
  StableHlo.after_of_forall_not_mem (b := Proc.devRef .tc b) _ _ (List.forall_iff_forall_mem.mp h)

theorem w2 (c : Dev nD) (b : Ref sig .tc) (h : ∀ w, Pipeline.arrRef spec0 w ≠ b) :
    W2 m ρ c (Proc.devRef .tc b) = W1 m ρ c (Proc.devRef .tc b) := W2_of_ne m ρ c b h

theorem w3 (c : Dev nD) (b : Ref sig .tc) (h : NoWrite (F := F) hostOps1 b) :
    W3 m ρ c (Proc.devRef .tc b) = W2 m ρ c (Proc.devRef .tc b) :=
  StableHlo.after_of_forall_not_mem (b := Proc.devRef .tc b) _ _ (List.forall_iff_forall_mem.mp h)

theorem w4 (c : Dev nD) (b : Ref sig .tc) (h : ∀ w, Pipeline.arrRef spec1 w ≠ b) :
    W4 m ρ c (Proc.devRef .tc b) = W3 m ρ c (Proc.devRef .tc b) := W4_of_ne m ρ c b h

theorem w5 (c : Dev nD) (b : Ref sig .tc) (h : NoWrite (F := F) hostOps2 b) :
    W5 m ρ c (Proc.devRef .tc b) = W4 m ρ c (Proc.devRef .tc b) :=
  StableHlo.after_of_forall_not_mem (b := Proc.devRef .tc b) _ _ (List.forall_iff_forall_mem.mp h)

theorem w6 (c : Dev nD) (b : Ref sig .tc) (h : ∀ w, Pipeline.arrRef spec2 w ≠ b) :
    W6 m ρ c (Proc.devRef .tc b) = W5 m ρ c (Proc.devRef .tc b) := W6_of_ne m ρ c b h

theorem w7 (c : Dev nD) (b : Ref sig .tc) (h : NoWrite (F := F) hostOps3 b) :
    W7 m ρ c (Proc.devRef .tc b) = W6 m ρ c (Proc.devRef .tc b) :=
  StableHlo.after_of_forall_not_mem (b := Proc.devRef .tc b) _ _ (List.forall_iff_forall_mem.mp h)

/-! ## From the first stretch's exit to a later region's entry -/

theorem from1to3 (c : Dev nD) (b : Ref sig .tc) (r0 : ∀ w, Pipeline.arrRef spec0 w ≠ b) (h1 : NoWrite (F := F) hostOps1 b) :
    W3 m ρ c (Proc.devRef .tc b) = W1 m ρ c (Proc.devRef .tc b) :=
  (w3 m ρ c b h1).trans (w2 m ρ c b r0)

theorem from1to5 (c : Dev nD) (b : Ref sig .tc) (r0 : ∀ w, Pipeline.arrRef spec0 w ≠ b) (h1 : NoWrite (F := F) hostOps1 b)
    (r1 : ∀ w, Pipeline.arrRef spec1 w ≠ b) (h2 : NoWrite (F := F) hostOps2 b) :
    W5 m ρ c (Proc.devRef .tc b) = W1 m ρ c (Proc.devRef .tc b) :=
  (w5 m ρ c b h2).trans ((w4 m ρ c b r1).trans (from1to3 m ρ c b r0 h1))

theorem from1to7 (c : Dev nD) (b : Ref sig .tc) (r0 : ∀ w, Pipeline.arrRef spec0 w ≠ b) (h1 : NoWrite (F := F) hostOps1 b)
    (r1 : ∀ w, Pipeline.arrRef spec1 w ≠ b) (h2 : NoWrite (F := F) hostOps2 b)
    (r2 : ∀ w, Pipeline.arrRef spec2 w ≠ b) (h3 : NoWrite (F := F) hostOps3 b) :
    W7 m ρ c (Proc.devRef .tc b) = W1 m ρ c (Proc.devRef .tc b) :=
  (w7 m ρ c b h3).trans ((w6 m ρ c b r2).trans (from1to5 m ρ c b r0 h1 r1 h2))

/-! ## The argument arrays and the second weight table, where the regions read them -/

section
variable (c : Dev nD)

theorem arg0_at1 : V1 m ρ c main_arg0 = m ((c : Thread nD τ).loc main_arg0) := w1 m ρ c main_arg0 (by no_write)
theorem arg3_at1 : V1 m ρ c main_arg3 = m ((c : Thread nD τ).loc main_arg3) := w1 m ρ c main_arg3 (by no_write)

theorem arg4_at3 : V3 m ρ c main_arg4 = m ((c : Thread nD τ).loc main_arg4) :=
  (from1to3 m ρ c main_arg4 (by decide) (by no_write)).trans (w1 m ρ c main_arg4 (by no_write))
theorem arg5_at3 : V3 m ρ c main_arg5 = m ((c : Thread nD τ).loc main_arg5) :=
  (from1to3 m ρ c main_arg5 (by decide) (by no_write)).trans (w1 m ρ c main_arg5 (by no_write))
theorem arg7_at3 : V3 m ρ c main_arg7 = m ((c : Thread nD τ).loc main_arg7) :=
  (from1to3 m ρ c main_arg7 (by decide) (by no_write)).trans (w1 m ρ c main_arg7 (by no_write))
theorem v15_at3 : V3 m ρ c main_v15 = V1 m ρ c main_v15 := from1to3 m ρ c main_v15 (by decide) (by no_write)

theorem arg8_at5 : V5 m ρ c main_arg8 = m ((c : Thread nD τ).loc main_arg8) :=
  (from1to5 m ρ c main_arg8 (by decide) (by no_write) (by decide) (by no_write)).trans (w1 m ρ c main_arg8 (by no_write))
theorem arg9_at5 : V5 m ρ c main_arg9 = m ((c : Thread nD τ).loc main_arg9) :=
  (from1to5 m ρ c main_arg9 (by decide) (by no_write) (by decide) (by no_write)).trans (w1 m ρ c main_arg9 (by no_write))

theorem arg10_at7 : V7 m ρ c main_arg10 = m ((c : Thread nD τ).loc main_arg10) :=
  (from1to7 m ρ c main_arg10 (by decide) (by no_write) (by decide) (by no_write) (by decide) (by no_write)).trans
    (w1 m ρ c main_arg10 (by no_write))
theorem arg11_at7 : V7 m ρ c main_arg11 = m ((c : Thread nD τ).loc main_arg11) :=
  (from1to7 m ρ c main_arg11 (by decide) (by no_write) (by decide) (by no_write) (by decide) (by no_write)).trans
    (w1 m ρ c main_arg11 (by no_write))

/-- A region's result, read where the next region reads it: the next stretch does not write it. -/
theorem v16_at3 : V3 m ρ c main_v16 = W2 m ρ c (Proc.devRef .tc main_v16) := w3 m ρ c main_v16 (by no_write)
theorem v27_at5 : V5 m ρ c main_v27 = W4 m ρ c (Proc.devRef .tc main_v27) := w5 m ρ c main_v27 (by no_write)
theorem v38_at7 : V7 m ρ c main_v38 = W6 m ρ c (Proc.devRef .tc main_v38) := w7 m ρ c main_v38 (by no_write)

end

end Cert.KernelIdeal.Carry

end
-- ==== Proof.Spec.lean ====
/-
  The layer's arithmetic, stated once over the extended reals on literal shapes, free of any program.

  A node table has 50000 rows (nodes) and 128 columns (features). Three operations build the whole layer:

  * `lin h wt b`  — an affine map of every row: entry (p, q) is  ∑ₖ h(p, k) · wt(k, q) + b(q);
  * `norm h μ v g be` — a per-column normalisation: entry (p, q) is
        (h(p, q) − μ(q)) · (v(q) + ε)^(−1/2) · g(q) + be(q),
    with ε the single-precision value nearest 10⁻⁵, the same word in both programs;
  * `relu h` — the positive part, entry by entry;
  * `add a b` — the entrywise sum of two tables (a node's features plus the sum of its neighbours').

  The column statistics μ and v are whatever column vectors they are given: both programs compute them with the same
  host operations from equal tables, so this file never opens them.
-/
import Idealize.ShloMosaic.PureOps.Ideal
import Idealize.ShloMosaic.Lib.ValueIdx

noncomputable section

namespace Cert.GinSpec

open Idealize.ShloMosaic Idealize.ShloMosaic.ValueIdx

/-- Node tables: 50000 rows of 128 features. -/
abbrev Nodes : Shape := ⟨2, ![50000, 128]⟩
/-- Feature vectors: one number per column. -/
abbrev Feat : Shape := ⟨1, ![128]⟩
/-- Square weight tables. -/
abbrev Sq : Shape := ⟨2, ![128, 128]⟩

/-- The variance offset of the normalisation, as the extended real its single-precision word denotes. -/
abbrev eps : EReal := Ideal.ofBits .f32 0x3727C5AC#32

/-- The entrywise sum of two tables. -/
def add (a b : Nodes.Idx → EReal) : Nodes.Idx → EReal := fun i => a i + b i

theorem add_apply (a b : Nodes.Idx → EReal) (i : Nodes.Idx) : add a b i = a i + b i := rfl

/-- One entry of the affine map: the row's inner product with a column of the weights, plus that column's bias. -/
def linAt (h : Nodes.Idx → EReal) (wt : Sq.Idx → EReal) (b : Feat.Idx → EReal) (p : Fin 50000) (q : Fin 128) : EReal :=
  (∑ k : Fin 128, h (ix2 p k) * wt (ix2 k q)) + b (ix1 q)

/-- The affine map of every row. -/
def lin (h : Nodes.Idx → EReal) (wt : Sq.Idx → EReal) (b : Feat.Idx → EReal) : Nodes.Idx → EReal :=
  fun i => linAt h wt b (i 0) (i 1)

theorem lin_ix2 (h : Nodes.Idx → EReal) (wt : Sq.Idx → EReal) (b : Feat.Idx → EReal) (p : Fin 50000) (q : Fin 128) :
    lin h wt b (ix2 p q) = linAt h wt b p q := rfl

/-- One entry of the column normalisation. -/
def normAt (h : Nodes.Idx → EReal) (μ v g be : Feat.Idx → EReal) (p : Fin 50000) (q : Fin 128) : EReal :=
  (h (ix2 p q) - μ (ix1 q)) * Ideal.rsqrt (v (ix1 q) + eps) * g (ix1 q) + be (ix1 q)

/-- The column normalisation of a whole table. -/
def norm (h : Nodes.Idx → EReal) (μ v g be : Feat.Idx → EReal) : Nodes.Idx → EReal :=
  fun i => normAt h μ v g be (i 0) (i 1)

theorem norm_ix2 (h : Nodes.Idx → EReal) (μ v g be : Feat.Idx → EReal) (p : Fin 50000) (q : Fin 128) :
    norm h μ v g be (ix2 p q) = normAt h μ v g be p q := rfl

/-- The positive part, entry by entry. -/
def relu (h : Nodes.Idx → EReal) : Nodes.Idx → EReal := fun i => max (h i) 0

theorem relu_apply (h : Nodes.Idx → EReal) (i : Nodes.Idx) : relu h i = max (h i) 0 := rfl

/-- Two tables with equal entries at every pair of coordinates are equal. -/
theorem ext_ix2 {f g : Nodes.Idx → EReal} (hfg : ∀ (p : Fin 50000) (q : Fin 128), f (ix2 p q) = g (ix2 p q)) : f = g :=
  funext fun i => by rw [eq_ix2 i]; exact hfg _ _

end Cert.GinSpec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.HostForms.lean ====
/-
  The host-side building blocks both programs share, as whole-table terms, and what each is entry by entry.

  Both programs aggregate neighbours, take column means and variances, and transpose the weights with the SAME host
  operations; the reference also does its affine maps, normalisations and positive parts on the host. Each such stretch is
  named here once, as the term the host operations compose to:

  * `agg x e`      — the neighbour sums: rows of `x` gathered at the edges' sources, added into the rows the edges point to;
  * `wT w`         — the transposed weight table;
  * `colMean h`, `colVar h μ` — the column sums of `h`, and of the squared deviations from `μ`, each divided by 50000;
  * `rows v`       — a feature vector repeated down every row;
  * `hLin`, `hNorm`, `hRelu` — the affine map, the column normalisation and the positive part as the host computes them.

  At the ideal values the last three are the layer's arithmetic of the specification, entry by entry (`hLin_eq`, `hNorm_eq`,
  `hRelu_eq`); the first four are never opened: both programs apply them to equal tables.
-/
import proofs.«154165_j23673859736036_1_alg».proof.Proof.Gen.ReferenceIdeal
import proofs.«154165_j23673859736036_1_alg».proof.Proof.Spec
import proofs.«154165_j23673859736036_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Forms

open Cert.ReferenceIdeal Cert.ReferenceIdeal.Gen Idealize.ShloMosaic Idealize.ShloMosaic.TcCoe Idealize.ShloMosaic.ValueIdx

variable {F : FTy → Type} [FloatOps F]

/-- The neighbour sums: rows of `x` gathered at the edges' source nodes (a negative index counted from the end), added into the
    rows of a zero table at the edges' target nodes. -/
def agg (x : FVec F S50000x128 .f32) (e : IVec S2x800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))

/-- The transposed weight table. -/
def wT (w : FVec F S128x128 .f32) : FVec F S128x128 .f32 := transpose S128x128 [1, 0] w transposes_S128x128_S128x128_1_0

/-- A feature vector repeated down every row. -/
def rows (v : FVec F S128 .f32) : FVec F S50000x128 .f32 :=
  broadcastInDim S50000x128 ![0, 1] bcast_S1x128_S50000x128_0_1 (broadcastInDim S1x128 ![1] bcast_S128_S1x128_1 v)

/-- The number of rows, 50000, in every column. -/
def count : FVec F S128 .f32 := broadcastInDim S128 ![] bcast_S_S128 (constant S_ .f32 0x47435000#32)

/-- The column sums. -/
def colSum (h : FVec F S50000x128 .f32) : FVec F S128 .f32 :=
  Host.reduceAdd h (constant S_ .f32 0x00000000#32) reducesTo_S50000x128_S128_d0 h_S_

/-- The column means. -/
def colMean (h : FVec F S50000x128 .f32) : FVec F S128 .f32 := Host.divf (colSum h) count

/-- The column means of the squared deviations from `μ`. -/
def colVar (h : FVec F S50000x128 .f32) (μ : FVec F S128 .f32) : FVec F S128 .f32 :=
  Host.divf (colSum (mulf (subf h (rows μ)) (subf h (rows μ)))) count

/-- The affine map of every row, as the host computes it. -/
def hLin (h : FVec F S50000x128 .f32) (wt : FVec F S128x128 .f32) (b : FVec F S128 .f32) : FVec F S50000x128 .f32 :=
  addf (Host.dotGeneral dot_S50000x128_S128x128_S50000x128_1_0_0_1_n_n none h wt) (rows b)

/-- The column normalisation, as the host computes it. -/
def hNorm (h : FVec F S50000x128 .f32) (μ v g be : FVec F S128 .f32) : FVec F S50000x128 .f32 :=
  addf (mulf (mulf (subf h (rows μ)) (rows (Host.rsqrt (addf v (broadcastInDim S128 ![] bcast_S_S128 (constant S_ .f32 0x3727C5AC#32)))))) (rows g)) (rows be)

/-- The positive part, as the host computes it. -/
def hRelu (h : FVec F S50000x128 .f32) : FVec F S50000x128 .f32 :=
  maximumf h (broadcastInDim S50000x128 ![] bcast_S_S50000x128 (constant S_ .f32 0x00000000#32))

/-- The table of ones the reference scales its input by. -/
def ones : FVec F S50000x128 .f32 := broadcastInDim S50000x128 ![] bcast_S_S50000x128 (constant S_ .f32 0x3F800000#32)

/-- A feature vector repeated down every row reads, at entry (p, q), the vector's entry q. -/
theorem rows_at (v : FVec F S128 .f32) (p : Fin 50000) (q : Fin 128) : rows v (ix2 p q) = v (ix1 q) := by
  unfold rows
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-! ## Entry by entry, at the ideal values -/

/-- The single-precision word of 1.0 denotes the number one. -/
theorem one_word : Ideal.ofBits .f32 0x3F800000#32 = 1 := by
  simp [Ideal.ofBits, Ideal.ieee, -EReal.coe_mul]; norm_num

/-- Scaling a table by the table of ones changes nothing: one times any extended real is that extended real. -/
theorem ones_mul (x : FVec Ideal S50000x128 .f32) : mulf ones x = x := by
  funext i
  rw [mulf_apply]
  show Ideal.ofBits .f32 0x3F800000#32 * x i = x i
  rw [one_word, one_mul]

/-- The host's sum of two tables is their entrywise sum. -/
theorem addf_eq (a b : FVec Ideal S50000x128 .f32) : addf a b = GinSpec.add a b := rfl

/-- The host's affine map is the specification's: its `dot_general` contracts the row against the weights' column. -/
theorem hLin_eq (h : FVec Ideal S50000x128 .f32) (wt : FVec Ideal S128x128 .f32) (b : FVec Ideal S128 .f32) :
    hLin h wt b = GinSpec.lin h wt b := by
  refine GinSpec.ext_ix2 fun p q => ?_
  unfold hLin
  rw [addf_apply, rows_at]
  refine congrArg (· + b (ix1 q)) ?_
  exact Cert.LibPlainDot.dotGeneral_apply dot_S50000x128_S128x128_S50000x128_1_0_0_1_n_n rfl rfl rfl rfl rfl rfl none _ h wt p q

/-- The host's column normalisation is the specification's: the repeated vectors read their entry q, and the host's
    reciprocal square root is the same function of the extended reals as the kernel's. -/
theorem hNorm_eq (h : FVec Ideal S50000x128 .f32) (μ v g be : FVec Ideal S128 .f32) :
    hNorm h μ v g be = GinSpec.norm h μ v g be := by
  refine GinSpec.ext_ix2 fun p q => ?_
  unfold hNorm
  rw [addf_apply, mulf_apply, mulf_apply, subf_apply, rows_at, rows_at, rows_at, rows_at]
  rfl

/-- The host's positive part is the specification's: the zero table's entries denote zero. -/
theorem hRelu_eq (h : FVec Ideal S50000x128 .f32) : hRelu h = GinSpec.relu h := by
  funext i
  unfold hRelu
  rw [maximumf_apply]
  refine congrArg (max (h i)) ?_
  show Ideal.ofBits .f32 0x00000000#32 = 0
  exact Ideal.ofBits_zero_f32

/-! ## The layer, stage by stage

Four stages, one per region of the kernel program; each takes the table the stage before left. -/

/-- Stage 1: a node's features plus its neighbours' sum, through the first affine map. -/
def st1 (x : FVec Ideal S50000x128 .f32) (e : IVec S2x800000 32) (w1 : FVec Ideal S128x128 .f32) (b1 : FVec Ideal S128 .f32) :
    FVec Ideal S50000x128 .f32 :=
  GinSpec.lin (GinSpec.add x (agg x e)) (wT w1) b1

/-- Stage 2: normalise by the table's own column statistics, take the positive part, apply the second affine map. -/
def st2 (h1 : FVec Ideal S50000x128 .f32) (g1 be1 : FVec Ideal S128 .f32) (w2 : FVec Ideal S128x128 .f32) (b2 : FVec Ideal S128 .f32) :
    FVec Ideal S50000x128 .f32 :=
  GinSpec.lin (GinSpec.relu (GinSpec.norm h1 (colMean h1) (colVar h1 (colMean h1)) g1 be1)) (wT w2) b2

/-- Stage 3: normalise by the table's own column statistics and take the positive part. -/
def st3 (h2 : FVec Ideal S50000x128 .f32) (g2 be2 : FVec Ideal S128 .f32) : FVec Ideal S50000x128 .f32 :=
  GinSpec.relu (GinSpec.norm h2 (colMean h2) (colVar h2 (colMean h2)) g2 be2)

/-- Stage 4: normalise by the table's own column statistics. -/
def st4 (a2 : FVec Ideal S50000x128 .f32) (g3 be3 : FVec Ideal S128 .f32) : FVec Ideal S50000x128 .f32 :=
  GinSpec.norm a2 (colMean a2) (colVar a2 (colMean a2)) g3 be3

/-- The whole layer. -/
def layer (x : FVec Ideal S50000x128 .f32) (e : IVec S2x800000 32) (w1 : FVec Ideal S128x128 .f32) (b1 g1 be1 : FVec Ideal S128 .f32)
    (w2 : FVec Ideal S128x128 .f32) (b2 g2 be2 g3 be3 : FVec Ideal S128 .f32) : FVec Ideal S50000x128 .f32 :=
  st4 (st3 (st2 (st1 x e w1 b1) g1 be1 w2 b2) g2 be2) g3 be3

end Cert.ReferenceIdeal.Forms

end
-- ==== Proof.KernelReads.lean ====
/-
  What the kernel program's four host stretches compute, as the shared host forms.

  The first stretch computes the neighbour sums and transposes the two weight tables from the launch contents. Each later
  stretch computes, from the table the region before it left, that table's column means and the column means of its squared
  deviations. These are the same host operations the reference applies, so each result is named by the shared form
  (`agg`, `wT`, `colMean`, `colVar`) of the stretch's input.
-/
import proofs.«154165_j23673859736036_1_alg».proof.Proof.KernelIdealFrameP
import proofs.«154165_j23673859736036_1_alg».proof.Proof.HostForms
import Idealize.ShloMosaic.Lib.StableHlo.Run

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen Cert.KernelIdeal.GenP
open Cert.ReferenceIdeal (Forms.agg Forms.wT Forms.colMean Forms.colVar)

variable {F : FTy → Type} [FloatOps F]
variable (m : (ℓ : Loc nD τ sig) → Buf (Elt F) ℓ) (ρ : Dev nD → PrngReg) (c : Dev nD)

set_option maxHeartbeats 2000000 in
/-- The first stretch leaves the neighbour sums of the launch features along the launch edges. -/
theorem v13_at1 : V1 m ρ c main_v13 = Forms.agg (m ((c : Thread nD τ).loc main_arg0)) (m ((c : Thread nD τ).loc main_arg1)) := by
  show StableHlo.after hostOps0 (W0 m ρ c) (Proc.devRef .tc main_v13) = _
  simp only [hostOps0]
  after_results_simp
  rfl

/-- The first stretch leaves the first weight table transposed. -/
theorem v14_at1 : V1 m ρ c main_v14 = Forms.wT (m ((c : Thread nD τ).loc main_arg2)) := by
  show StableHlo.after hostOps0 (W0 m ρ c) (Proc.devRef .tc main_v14) = _
  simp only [hostOps0]
  after_results
  rfl

/-- The first stretch leaves the second weight table transposed. -/
theorem v15_at1 : V1 m ρ c main_v15 = Forms.wT (m ((c : Thread nD τ).loc main_arg6)) := by
  show StableHlo.after hostOps0 (W0 m ρ c) (Proc.devRef .tc main_v15) = _
  simp only [hostOps0]
  after_results
  rfl

/-- The second stretch leaves the column means of region 0's table. -/
theorem v19_at3 : V3 m ρ c main_v19 = Forms.colMean (W2 m ρ c (Proc.devRef .tc main_v16)) := by
  show StableHlo.after hostOps1 (W2 m ρ c) (Proc.devRef .tc main_v19) = _
  simp only [hostOps1]
  after_results
  rfl

/-- The second stretch leaves the column variances of region 0's table about those means. -/
theorem v26_at3 : V3 m ρ c main_v26
    = Forms.colVar (W2 m ρ c (Proc.devRef .tc main_v16)) (Forms.colMean (W2 m ρ c (Proc.devRef .tc main_v16))) := by
  show StableHlo.after hostOps1 (W2 m ρ c) (Proc.devRef .tc main_v26) = _
  simp only [hostOps1]
  after_results
  rfl

/-- The third stretch leaves the column means of region 1's table. -/
theorem v30_at5 : V5 m ρ c main_v30 = Forms.colMean (W4 m ρ c (Proc.devRef .tc main_v27)) := by
  show StableHlo.after hostOps2 (W4 m ρ c) (Proc.devRef .tc main_v30) = _
  simp only [hostOps2]
  after_results
  rfl

/-- The third stretch leaves the column variances of region 1's table about those means. -/
theorem v37_at5 : V5 m ρ c main_v37
    = Forms.colVar (W4 m ρ c (Proc.devRef .tc main_v27)) (Forms.colMean (W4 m ρ c (Proc.devRef .tc main_v27))) := by
  show StableHlo.after hostOps2 (W4 m ρ c) (Proc.devRef .tc main_v37) = _
  simp only [hostOps2]
  after_results
  rfl

/-- The fourth stretch leaves the column means of region 2's table. -/
theorem v41_at7 : V7 m ρ c main_v41 = Forms.colMean (W6 m ρ c (Proc.devRef .tc main_v38)) := by
  show StableHlo.after hostOps3 (W6 m ρ c) (Proc.devRef .tc main_v41) = _
  simp only [hostOps3]
  after_results
  rfl

/-- The fourth stretch leaves the column variances of region 2's table about those means. -/
theorem v48_at7 : V7 m ρ c main_v48
    = Forms.colVar (W6 m ρ c (Proc.devRef .tc main_v38)) (Forms.colMean (W6 m ρ c (Proc.devRef .tc main_v38))) := by
  show StableHlo.after hostOps3 (W6 m ρ c) (Proc.devRef .tc main_v48) = _
  simp only [hostOps3]
  after_results
  rfl

end Cert.KernelIdeal.Reads

end
-- ==== Proof.Reg0Value.lean ====
/-
  Region 0 (a node's features plus its neighbours' sum, then the first affine map), as a value.

  The region walks the node table in ten blocks of 5000 rows. At a block it loads the block of the features x and of the
  neighbour sums a, the transposed weight table wt and the bias b whole, and stores, entry (r, q) of the block,

      ∑ₖ (x(r, k) + a(r, k)) · wt(k, q)  +  b(q).

  The sum runs along row r of the block, which is row 5000·t + r of both tables for every k; the weights and the bias do
  not move with the block: what block t writes back is block t of the table `lin (add x a) wt b`. The ten blocks cover
  the table, so the array the region leaves is that table. (The product's operands pass through a narrower float format
  on the way; at the ideal values that changes nothing.)
-/
import proofs.«154165_j23673859736036_1_alg».proof.Proof.KernelIdealFrameP
import proofs.«154165_j23673859736036_1_alg».proof.Proof.Spec
import proofs.«154165_j23673859736036_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.GinSpec

theorem hz2 : (![0, 0] : Fin 2 → Nat) = fun _ => 0 := funext fun a => by fin_cases a <;> rfl
theorem hz1 : (![0] : Fin 1 → Nat) = fun _ => 0 := funext fun a => by fin_cases a <;> rfl

/-- A feature vector laid out as one row and repeated down the block reads, at entry (r, q), the vector's entry q. -/
theorem row_at (v : FVec Ideal S128 .f32) (r : Fin 5000) (q : Fin 128) :
    broadcastTo S5000x128 (shapeCast S1x128 v shapeCasts_S128_S1x128) broadcasts_S1x128_S5000x128 (ix2 r q) = v (ix1 q) := by
  rw [broadcastTo_1b_ab_apply, shapeCast_a_1a_apply]

/-- The stored value at entry (r, q) of a block: row r of the summed blocks against column q of the weights, plus the bias's
    entry q. -/
theorem pay_at (x0 x1 : Vec Ideal S5000x128 .f32) (x2 : Vec Ideal S128x128 .f32) (x3 : Vec Ideal S128 .f32) (r : Fin 5000) (q : Fin 128) :
    k0_pay1 x0 x1 x2 x3 (ix2 r q) = (∑ k : Fin 128, (x0 (ix2 r k) + x1 (ix2 r k)) * x2 (ix2 k q)) + x3 (ix1 q) := by
  unfold k0_pay1
  simp only [shapeCast_self]
  rw [addf_apply, row_at]
  refine congrArg (· + x3 (ix1 q)) ?_
  refine (Cert.LibPlainDot.matmul_zero_apply dot_S5000x128_S128x128_S5000x128_1_0_0_1_n_n rfl rfl rfl rfl rfl rfl none _ _ r q).trans ?_
  refine Finset.sum_congr rfl fun k _ => ?_
  rw [truncf_apply, truncf_apply, addf_apply]

variable (V : (c : Dev nD) → (b : Ref sig .tc) → Buf (Elt Ideal) ((c : Thread nD τ).loc b))

/-- The printed index maps, decided over the ten grid points: the two tables' windows and the result's window sit at block row
    t, block column 0; the weight table's and the bias's windows stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 ∧ win0_3.index t (0 : Fin 1) = 0
    ∧ win0_4.index t (0 : Fin 2) = t.val ∧ win0_4.index t (1 : Fin 2) = 0 :=
  (by decide +kernel : ∀ t : Fin grid0.N, _)

/-- What grid point t writes back is block t of the affine map of the summed tables. -/
theorem flushed (c : Dev nD) (t : Fin cfg0.N) :
    (dat0 V c).flushed 4 t = ((cfg0.win 4).blk t).view.read (Elt Ideal)
      (lin (add (V c main_arg0) (V c main_v13)) (V c main_v14) (V c main_arg3)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128) hz1, View.ld_unit_zero (S := S128x128) hz2]
  obtain ⟨e0, e1, e2, e3, e4, e5, e6, e7, e8⟩ := idx_facts t
  funext j
  obtain ⟨r, q, rfl⟩ : ∃ (r : Fin 5000) (q : Fin 128), j = ix2 r q := ⟨j 0, j 1, eq_ix2 j⟩
  refine (pay_at (iblk0 V c 0 t) (iblk0 V c 1 t) (iblk0 V c 2 t) (iblk0 V c 3 t) r q).trans ?_
  have hX : ∀ k : Fin 128, iblk0 V c 0 t (ix2 r k) = V c main_arg0 (ix2 ((((cfg0.win 4).blk t).view.emb (ix2 r q)) 0) k) := fun k => by
    show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = win0_4.index t (0 : Fin 2) * 5000 + 1 * r.val; omega
    | ⟨1, _⟩ => show win0_0.index t (1 : Fin 2) * 128 + 1 * k.val = k.val; omega
  have hAg : ∀ k : Fin 128, iblk0 V c 1 t (ix2 r k) = V c main_v13 (ix2 ((((cfg0.win 4).blk t).view.emb (ix2 r q)) 0) k) := fun k => by
    show V c main_v13 (((cfg0.win 1).blk t).view.emb (ix2 r k)) = _
    refine congrArg (V c main_v13) (funext fun a => Fin.ext ?_)
    match a with
    | ⟨0, _⟩ => show win0_1.index t (0 : Fin 2) * 5000 + 1 * r.val = win0_4.index t (0 : Fin 2) * 5000 + 1 * r.val; omega
    | ⟨1, _⟩ => show win0_1.index t (1 : Fin 2) * 128 + 1 * k.val = k.val; omega
  have hW : ∀ k : Fin 128, iblk0 V c 2 t (ix2 k q) = V c main_v14 (ix2 k ((((cfg0.win 4).blk t).view.emb (ix2 r q)) 1)) := fun k => by
    show V c main_v14 (((cfg0.win 2).blk t).view.emb (ix2 k q)) = _
    refine congrArg (V c main_v14) (funext fun a => Fin.ext ?_)
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega
  have hB : iblk0 V c 3 t (ix1 q) = V c main_arg3 (ix1 ((((cfg0.win 4).blk t).view.emb (ix2 r q)) 1)) := by
    show V c main_arg3 (((cfg0.win 3).blk t).view.emb (ix1 q)) = _
    refine congrArg (V c main_arg3) (funext fun a => Fin.ext ?_)
    match a with
    | ⟨0, _⟩ => show win0_3.index t (0 : Fin 1) * 128 + 1 * q.val = win0_4.index t (1 : Fin 2) * 128 + 1 * q.val; omega
  rw [hB]
  show _ = linAt (add (V c main_arg0) (V c main_v13)) (V c main_v14) (V c main_arg3)
    ((((cfg0.win 4).blk t).view.emb (ix2 r q)) 0) ((((cfg0.win 4).blk t).view.emb (ix2 r q)) 1)
  unfold linAt
  refine congrArg (· + _) (Finset.sum_congr rfl fun k _ => ?_)
  rw [hX k, hAg k, hW k]
  rfl

/-- An entry of the table is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- Row p of the table lies in the block of grid point p / 5000: the ten blocks cover the table. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have ht : (i 0).val / 5000 < 10 := by omega
  obtain ⟨-, -, -, -, -, -, -, e7, e8⟩ := idx_facts ⟨(i 0).val / 5000, ht⟩
  have e7' : win0_4.index (⟨(i 0).val / 5000, ht⟩ : Fin cfg0.N) (0 : Fin 2) = (i 0).val / 5000 := e7
  refine ⟨⟨(i 0).val / 5000, ht⟩, flush0_4 _, ?_⟩
  rw [mem_blk]
  intro a
  match a with
  | ⟨0, _⟩ =>
    show win0_4.index (⟨(i 0).val / 5000, ht⟩ : Fin cfg0.N) (0 : Fin 2) * 5000 ≤ (i 0).val ∧ (i 0).val < win0_4.index (⟨(i 0).val / 5000, ht⟩ : Fin cfg0.N) (0 : Fin 2) * 5000 + 5000
    rw [e7']; omega
  | ⟨1, _⟩ =>
    show win0_4.index (⟨(i 0).val / 5000, ht⟩ : Fin cfg0.N) (1 : Fin 2) * 128 ≤ (i 1).val ∧ (i 1).val < win0_4.index (⟨(i 0).val / 5000, ht⟩ : Fin cfg0.N) (1 : Fin 2) * 128 + 128
    rw [e8]; omega

/-- The array the region leaves is the affine map of the summed tables. -/
theorem final (c : Dev nD) :
    (dat0 V c).arrAt 4 cfg0.N = lin (add (V c main_arg0) (V c main_v13)) (V c main_v14) (V c main_arg3) :=
  (dat0 V c).arrAt_eq_of_cover 4 _ (fun t _ => flushed V c t) cover

end Cert.KernelIdeal.Reg0

end
-- ==== Proof.Reg1Value.lean ====
/-
  Region 1 (the first column normalisation, the positive part, then the second affine map), as a value.

  The region walks the node table in ten blocks of 5000 rows. At a block it loads the block of the table h, four feature
  vectors μ, v, g, be, the transposed weight table wt and the bias b whole, and stores, entry (r, q) of the block,

      ∑ₖ max ((h(r, k) − μ(k)) · (v(k) + ε)^(−1/2) · g(k) + be(k)) 0 · wt(k, q)  +  b(q).

  The sum runs along row r of the block, which is row 5000·t + r of the table for every k, and nothing else moves with
  the block: what block t writes back is block t of the table `lin (relu (norm h μ v g be)) wt b`. The ten blocks cover
  the table, so the array the region leaves is that table. (The product's operands pass through a narrower float format
  on the way; at the ideal values that changes nothing.)
-/
import proofs.«154165_j23673859736036_1_alg».proof.Proof.KernelIdealFrameP
import proofs.«154165_j23673859736036_1_alg».proof.Proof.Spec
import proofs.«154165_j23673859736036_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.GinSpec

theorem hz2 : (![0, 0] : Fin 2 → Nat) = fun _ => 0 := funext fun a => by fin_cases a <;> rfl
theorem hz1 : (![0] : Fin 1 → Nat) = fun _ => 0 := funext fun a => by fin_cases a <;> rfl

/-- A feature vector laid out as one row and repeated down the block reads, at entry (r, q), the vector's entry q. -/
theorem row_at (v : FVec Ideal S128 .f32) (r : Fin 5000) (q : Fin 128) :
    broadcastTo S5000x128 (shapeCast S1x128 v shapeCasts_S128_S1x128) broadcasts_S1x128_S5000x128 (ix2 r q) = v (ix1 q) := by
  rw [broadcastTo_1b_ab_apply, shapeCast_a_1a_apply]

/-- The stored value at entry (r, q) of a block: row r of the activated, normalised block against column q of the weights,
    plus the bias's entry q. -/
theorem pay_at (x0 : Vec Ideal S5000x128 .f32) (x1 x2 x3 x4 : Vec Ideal S128 .f32) (x5 : Vec Ideal S128x128 .f32)
    (x6 : Vec Ideal S128 .f32) (r : Fin 5000) (q : Fin 128) :
    k1_pay1 x0 x1 x2 x3 x4 x5 x6 (ix2 r q)
      = (∑ k : Fin 128, max ((x0 (ix2 r k) - x1 (ix1 k)) * Ideal.rsqrt (x2 (ix1 k) + eps) * x3 (ix1 k) + x4 (ix1 k)) 0 * x5 (ix2 k q))
        + x6 (ix1 q) := by
  unfold k1_pay1
  simp only [shapeCast_self]
  rw [addf_apply, row_at]
  refine congrArg (· + x6 (ix1 q)) ?_
  refine (Cert.LibPlainDot.matmul_zero_apply dot_S5000x128_S128x128_S5000x128_1_0_0_1_n_n rfl rfl rfl rfl rfl rfl none _ _ r q).trans ?_
  refine Finset.sum_congr rfl fun k _ => ?_
  rw [truncf_apply, truncf_apply, maximumf_apply, addf_apply, mulf_apply, mulf_apply, subf_apply, row_at, row_at, row_at, row_at,
    broadcast_apply]
  refine congrArg (· * x5 (ix2 k q)) (congrArg (max _) ?_)
  exact Ideal.ofBits_zero_f32

variable (V : (c : Dev nD) → (b : Ref sig .tc) → Buf (Elt Ideal) ((c : Thread nD τ).loc b))

/-- The printed index maps, decided over the ten grid points: the table's window and the result's window sit at block row t,
    block column 0; the feature vectors' and the weight table's windows stay at block 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = t.val ∧ win1_7.index t (1 : Fin 2) = 0 :=
  (by decide +kernel : ∀ t : Fin grid1.N, _)

/-- What grid point t writes back is block t of the affine map of the activated, normalised table. -/
theorem flushed (c : Dev nD) (t : Fin cfg1.N) :
    (dat1 V c).flushed 7 t = ((cfg1.win 7).blk t).view.read (Elt Ideal)
      (lin (relu (norm (V c main_v16) (V c main_v19) (V c main_v26) (V c main_arg4) (V c main_arg5))) (V c main_v15) (V c main_arg7)) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128) hz1, View.ld_unit_zero (S := S128x128) hz2]
  obtain ⟨e0, e1, e2, e3, e4, e5, e6, e7, e8, e9, e10⟩ := idx_facts t
  funext j
  obtain ⟨r, q, rfl⟩ : ∃ (r : Fin 5000) (q : Fin 128), j = ix2 r q := ⟨j 0, j 1, eq_ix2 j⟩
  refine (pay_at (iblk1 V c 0 t) (iblk1 V c 1 t) (iblk1 V c 2 t) (iblk1 V c 3 t) (iblk1 V c 4 t) (iblk1 V c 5 t) (iblk1 V c 6 t) r q).trans ?_
  have hA : ∀ k : Fin 128, iblk1 V c 0 t (ix2 r k) = V c main_v16 (ix2 ((((cfg1.win 7).blk t).view.emb (ix2 r q)) 0) k) := fun k => by
    show V c main_v16 (((cfg1.win 0).blk t).view.emb (ix2 r k)) = _
    refine congrArg (V c main_v16) (funext fun a => Fin.ext ?_)
    match a with
    | ⟨0, _⟩ => show win1_0.index t (0 : Fin 2) * 5000 + 1 * r.val = win1_7.index t (0 : Fin 2) * 5000 + 1 * r.val; omega
    | ⟨1, _⟩ => show win1_0.index t (1 : Fin 2) * 128 + 1 * k.val = k.val; omega
  have h1 : ∀ k : Fin 128, iblk1 V c 1 t (ix1 k) = V c main_v19 (ix1 k) := fun k => by
    show V c main_v19 (((cfg1.win 1).blk t).view.emb (ix1 k)) = _
    refine congrArg (V c main_v19) (funext fun a => Fin.ext ?_)
    match a with
    | ⟨0, _⟩ => show win1_1.index t (0 : Fin 1) * 128 + 1 * k.val = k.val; omega
  have h2 : ∀ k : Fin 128, iblk1 V c 2 t (ix1 k) = V c main_v26 (ix1 k) := fun k => by
    show V c main_v26 (((cfg1.win 2).blk t).view.emb (ix1 k)) = _
    refine congrArg (V c main_v26) (funext fun a => Fin.ext ?_)
    match a with
    | ⟨0, _⟩ => show win1_2.index t (0 : Fin 1) * 128 + 1 * k.val = k.val; omega
  have h3 : ∀ k : Fin 128, iblk1 V c 3 t (ix1 k) = V c main_arg4 (ix1 k) := fun k => by
    show V c main_arg4 (((cfg1.win 3).blk t).view.emb (ix1 k)) = _
    refine congrArg (V c main_arg4) (funext fun a => Fin.ext ?_)
    match a with
    | ⟨0, _⟩ => show win1_3.index t (0 : Fin 1) * 128 + 1 * k.val = k.val; omega
  have h4 : ∀ k : Fin 128, iblk1 V c 4 t (ix1 k) = V c main_arg5 (ix1 k) := fun k => by
    show V c main_arg5 (((cfg1.win 4).blk t).view.emb (ix1 k)) = _
    refine congrArg (V c main_arg5) (funext fun a => Fin.ext ?_)
    match a with
    | ⟨0, _⟩ => show win1_4.index t (0 : Fin 1) * 128 + 1 * k.val = k.val; omega
  have h5 : ∀ k : Fin 128, iblk1 V c 5 t (ix2 k q) = V c main_v15 (ix2 k ((((cfg1.win 7).blk t).view.emb (ix2 r q)) 1)) := fun k => by
    show V c main_v15 (((cfg1.win 5).blk t).view.emb (ix2 k q)) = _
    refine congrArg (V c main_v15) (funext fun a => Fin.ext ?_)
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  have h6 : iblk1 V c 6 t (ix1 q) = V c main_arg7 (ix1 ((((cfg1.win 7).blk t).view.emb (ix2 r q)) 1)) := by
    show V c main_arg7 (((cfg1.win 6).blk t).view.emb (ix1 q)) = _
    refine congrArg (V c main_arg7) (funext fun a => Fin.ext ?_)
    match a with
    | ⟨0, _⟩ => show win1_6.index t (0 : Fin 1) * 128 + 1 * q.val = win1_7.index t (1 : Fin 2) * 128 + 1 * q.val; omega
  rw [h6]
  show _ = linAt (relu (norm (V c main_v16) (V c main_v19) (V c main_v26) (V c main_arg4) (V c main_arg5))) (V c main_v15) (V c main_arg7)
    ((((cfg1.win 7).blk t).view.emb (ix2 r q)) 0) ((((cfg1.win 7).blk t).view.emb (ix2 r q)) 1)
  unfold linAt
  refine congrArg (· + _) (Finset.sum_congr rfl fun k _ => ?_)
  rw [hA k, h1 k, h2 k, h3 k, h4 k, h5 k]
  rfl

/-- An entry of the table is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v27).slice (win1_7.rect t)).set ↔ _
  rw [View.set_slice_whole, Rect.mem_set_unit]
  exact Iff.rfl

/-- Row p of the table lies in the block of grid point p / 5000: the ten blocks cover the table. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < 10 := by omega
  obtain ⟨-, -, -, -, -, -, -, -, -, e9, e10⟩ := idx_facts ⟨(i 0).val / 5000, ht⟩
  have e9' : win1_7.index (⟨(i 0).val / 5000, ht⟩ : Fin cfg1.N) (0 : Fin 2) = (i 0).val / 5000 := e9
  refine ⟨⟨(i 0).val / 5000, ht⟩, flush1_7 _, ?_⟩
  rw [mem_blk]
  intro a
  match a with
  | ⟨0, _⟩ =>
    show win1_7.index (⟨(i 0).val / 5000, ht⟩ : Fin cfg1.N) (0 : Fin 2) * 5000 ≤ (i 0).val ∧ (i 0).val < win1_7.index (⟨(i 0).val / 5000, ht⟩ : Fin cfg1.N) (0 : Fin 2) * 5000 + 5000
    rw [e9']; omega
  | ⟨1, _⟩ =>
    show win1_7.index (⟨(i 0).val / 5000, ht⟩ : Fin cfg1.N) (1 : Fin 2) * 128 ≤ (i 1).val ∧ (i 1).val < win1_7.index (⟨(i 0).val / 5000, ht⟩ : Fin cfg1.N) (1 : Fin 2) * 128 + 128
    rw [e10]; omega

/-- The array the region leaves is the affine map of the activated, normalised table. -/
theorem final (c : Dev nD) :
    (dat1 V c).arrAt 7 cfg1.N
      = lin (relu (norm (V c main_v16) (V c main_v19) (V c main_v26) (V c main_arg4) (V c main_arg5))) (V c main_v15) (V c main_arg7) :=
  (dat1 V c).arrAt_eq_of_cover 7 _ (fun t _ => flushed V c t) cover

end Cert.KernelIdeal.Reg1

end
-- ==== Proof.Reg2Value.lean ====
/-
  Region 2 (the second column normalisation followed by the positive part), as a value.

  The region walks the node table in ten blocks of 5000 rows. At a block it loads the block of the table, the four feature
  vectors whole, and stores, entry (r, q) of the block,

      max ((h(r, q) − μ(q)) · (v(q) + ε)^(−1/2) · g(q) + be(q)) 0.

  Row r of block t is row 5000·t + r of the table, and the feature vectors do not move with the block, so what block t
  writes back is block t of the table `relu (norm h μ v g be)`; the ten blocks cover the table, and the array the
  region leaves is that table.
-/
import proofs.«154165_j23673859736036_1_alg».proof.Proof.KernelIdealFrameP
import proofs.«154165_j23673859736036_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.GinSpec

theorem hz2 : (![0, 0] : Fin 2 → Nat) = fun _ => 0 := funext fun a => by fin_cases a <;> rfl
theorem hz1 : (![0] : Fin 1 → Nat) = fun _ => 0 := funext fun a => by fin_cases a <;> rfl

/-- A feature vector laid out as one row and repeated down the block reads, at entry (r, q), the vector's entry q. -/
theorem row_at (v : FVec Ideal S128 .f32) (r : Fin 5000) (q : Fin 128) :
    broadcastTo S5000x128 (shapeCast S1x128 v shapeCasts_S128_S1x128) broadcasts_S1x128_S5000x128 (ix2 r q) = v (ix1 q) := by
  rw [broadcastTo_1b_ab_apply, shapeCast_a_1a_apply]

/-- The stored value at entry (r, q) of a block: the positive part of the normalisation's formula of the block's entry and the
    vectors' entries q. -/
theorem pay_at (x0 : Vec Ideal S5000x128 .f32) (x1 x2 x3 x4 : Vec Ideal S128 .f32) (r : Fin 5000) (q : Fin 128) :
    k2_pay1 x0 x1 x2 x3 x4 (ix2 r q)
      = max ((x0 (ix2 r q) - x1 (ix1 q)) * Ideal.rsqrt (x2 (ix1 q) + eps) * x3 (ix1 q) + x4 (ix1 q)) 0 := by
  unfold k2_pay1
  simp only [shapeCast_self]
  rw [maximumf_apply, addf_apply, mulf_apply, mulf_apply, subf_apply, row_at, row_at, row_at, row_at, broadcast_apply]
  refine congrArg (max _) ?_
  exact Ideal.ofBits_zero_f32

variable (V : (c : Dev nD) → (b : Ref sig .tc) → Buf (Elt Ideal) ((c : Thread nD τ).loc b))

/-- The printed index maps, decided over the ten grid points: the table's window and the result's window sit at block row t,
    block column 0; the four feature vectors' windows stay at block 0. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

/-- What grid point t writes back is block t of the normalised table's positive part. -/
theorem flushed (c : Dev nD) (t : Fin cfg2.N) :
    (dat2 V c).flushed 5 t = ((cfg2.win 5).blk t).view.read (Elt Ideal)
      (relu (norm (V c main_v27) (V c main_v30) (V c main_v37) (V c main_arg8) (V c main_arg9))) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128) hz1]
  obtain ⟨e0, e1, e2, e3, e4, e5, e6, e7⟩ := idx_facts t
  funext j
  obtain ⟨r, q, rfl⟩ : ∃ (r : Fin 5000) (q : Fin 128), j = ix2 r q := ⟨j 0, j 1, eq_ix2 j⟩
  refine (pay_at (iblk2 V c 0 t) (iblk2 V c 1 t) (iblk2 V c 2 t) (iblk2 V c 3 t) (iblk2 V c 4 t) r q).trans ?_
  have hA : iblk2 V c 0 t (ix2 r q) = V c main_v27 (ix2 ((((cfg2.win 5).blk t).view.emb (ix2 r q)) 0) ((((cfg2.win 5).blk t).view.emb (ix2 r q)) 1)) := by
    show V c main_v27 (((cfg2.win 0).blk t).view.emb (ix2 r q)) = _
    refine congrArg (V c main_v27) (funext fun a => Fin.ext ?_)
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * q.val = win2_5.index t (1 : Fin 2) * 128 + 1 * q.val; omega
  have h1 : iblk2 V c 1 t (ix1 q) = V c main_v30 (ix1 ((((cfg2.win 5).blk t).view.emb (ix2 r q)) 1)) := by
    show V c main_v30 (((cfg2.win 1).blk t).view.emb (ix1 q)) = _
    refine congrArg (V c main_v30) (funext fun a => Fin.ext ?_)
    match a with
    | ⟨0, _⟩ => show win2_1.index t (0 : Fin 1) * 128 + 1 * q.val = win2_5.index t (1 : Fin 2) * 128 + 1 * q.val; omega
  have h2 : iblk2 V c 2 t (ix1 q) = V c main_v37 (ix1 ((((cfg2.win 5).blk t).view.emb (ix2 r q)) 1)) := by
    show V c main_v37 (((cfg2.win 2).blk t).view.emb (ix1 q)) = _
    refine congrArg (V c main_v37) (funext fun a => Fin.ext ?_)
    match a with
    | ⟨0, _⟩ => show win2_2.index t (0 : Fin 1) * 128 + 1 * q.val = win2_5.index t (1 : Fin 2) * 128 + 1 * q.val; omega
  have h3 : iblk2 V c 3 t (ix1 q) = V c main_arg8 (ix1 ((((cfg2.win 5).blk t).view.emb (ix2 r q)) 1)) := by
    show V c main_arg8 (((cfg2.win 3).blk t).view.emb (ix1 q)) = _
    refine congrArg (V c main_arg8) (funext fun a => Fin.ext ?_)
    match a with
    | ⟨0, _⟩ => show win2_3.index t (0 : Fin 1) * 128 + 1 * q.val = win2_5.index t (1 : Fin 2) * 128 + 1 * q.val; omega
  have h4 : iblk2 V c 4 t (ix1 q) = V c main_arg9 (ix1 ((((cfg2.win 5).blk t).view.emb (ix2 r q)) 1)) := by
    show V c main_arg9 (((cfg2.win 4).blk t).view.emb (ix1 q)) = _
    refine congrArg (V c main_arg9) (funext fun a => Fin.ext ?_)
    match a with
    | ⟨0, _⟩ => show win2_4.index t (0 : Fin 1) * 128 + 1 * q.val = win2_5.index t (1 : Fin 2) * 128 + 1 * q.val; omega
  rw [hA, h1, h2, h3, h4]
  rfl

/-- An entry of the table is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v38).slice (win2_5.rect t)).set ↔ _
  rw [View.set_slice_whole, Rect.mem_set_unit]
  exact Iff.rfl

/-- Row p of the table lies in the block of grid point p / 5000: the ten blocks cover the table. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 5000 < 10 := by omega
  obtain ⟨-, -, -, -, -, -, e6, e7⟩ := idx_facts ⟨(i 0).val / 5000, ht⟩
  have e6' : win2_5.index (⟨(i 0).val / 5000, ht⟩ : Fin cfg2.N) (0 : Fin 2) = (i 0).val / 5000 := e6
  refine ⟨⟨(i 0).val / 5000, ht⟩, flush2_5 _, ?_⟩
  rw [mem_blk]
  intro a
  match a with
  | ⟨0, _⟩ =>
    show win2_5.index (⟨(i 0).val / 5000, ht⟩ : Fin cfg2.N) (0 : Fin 2) * 5000 ≤ (i 0).val ∧ (i 0).val < win2_5.index (⟨(i 0).val / 5000, ht⟩ : Fin cfg2.N) (0 : Fin 2) * 5000 + 5000
    rw [e6']; omega
  | ⟨1, _⟩ =>
    show win2_5.index (⟨(i 0).val / 5000, ht⟩ : Fin cfg2.N) (1 : Fin 2) * 128 ≤ (i 1).val ∧ (i 1).val < win2_5.index (⟨(i 0).val / 5000, ht⟩ : Fin cfg2.N) (1 : Fin 2) * 128 + 128
    rw [e7]; omega

/-- The array the region leaves is the positive part of the normalised table. -/
theorem final (c : Dev nD) :
    (dat2 V c).arrAt 5 cfg2.N = relu (norm (V c main_v27) (V c main_v30) (V c main_v37) (V c main_arg8) (V c main_arg9)) :=
  (dat2 V c).arrAt_eq_of_cover 5 _ (fun t _ => flushed V c t) cover

end Cert.KernelIdeal.Reg2

end
-- ==== Proof.Reg3Value.lean ====
/-
  The last region (the closing column normalisation), as a value.

  The region walks the node table in ten blocks of 5000 rows. At a block it loads the block of the table, the four feature
  vectors whole, and stores, entry (r, q) of the block,

      (h(r, q) − μ(q)) · (v(q) + ε)^(−1/2) · g(q) + be(q).

  Row r of block t is row 5000·t + r of the table, and the feature vectors do not move with the block, so what block t
  writes back is block t of the normalised table `norm h μ v g be`; the ten blocks cover the table, and the array the
  region leaves is that table.
-/
import proofs.«154165_j23673859736036_1_alg».proof.Proof.KernelIdealFrameP
import proofs.«154165_j23673859736036_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.GinSpec

theorem hz2 : (![0, 0] : Fin 2 → Nat) = fun _ => 0 := funext fun a => by fin_cases a <;> rfl
theorem hz1 : (![0] : Fin 1 → Nat) = fun _ => 0 := funext fun a => by fin_cases a <;> rfl

/-- A feature vector laid out as one row and repeated down the block reads, at entry (r, q), the vector's entry q. -/
theorem row_at (v : FVec Ideal S128 .f32) (r : Fin 5000) (q : Fin 128) :
    broadcastTo S5000x128 (shapeCast S1x128 v shapeCasts_S128_S1x128) broadcasts_S1x128_S5000x128 (ix2 r q) = v (ix1 q) := by
  rw [broadcastTo_1b_ab_apply, shapeCast_a_1a_apply]

/-- The stored value at entry (r, q) of a block: the normalisation's formula of the block's entry and the vectors' entries q. -/
theorem pay_at (x0 : Vec Ideal S5000x128 .f32) (x1 x2 x3 x4 : Vec Ideal S128 .f32) (r : Fin 5000) (q : Fin 128) :
    k3_pay1 x0 x1 x2 x3 x4 (ix2 r q)
      = (x0 (ix2 r q) - x1 (ix1 q)) * Ideal.rsqrt (x2 (ix1 q) + eps) * x3 (ix1 q) + x4 (ix1 q) := by
  unfold k3_pay1
  simp only [shapeCast_self]
  rw [addf_apply, mulf_apply, mulf_apply, subf_apply, row_at, row_at, row_at, row_at]
  rfl

variable (V : (c : Dev nD) → (b : Ref sig .tc) → Buf (Elt Ideal) ((c : Thread nD τ).loc b))

/-- The printed index maps, decided over the ten grid points: the table's window and the result's window sit at block row t,
    block column 0; the four feature vectors' windows stay at block 0. -/
theorem idx_facts : ∀ t : Fin cfg3.N, win3_0.index t (0 : Fin 2) = t.val ∧ win3_0.index t (1 : Fin 2) = 0
    ∧ win3_1.index t (0 : Fin 1) = 0 ∧ win3_2.index t (0 : Fin 1) = 0 ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- What grid point t writes back is block t of the normalised table. -/
theorem flushed (c : Dev nD) (t : Fin cfg3.N) :
    (dat3 V c).flushed 5 t = ((cfg3.win 5).blk t).view.read (Elt Ideal)
      (norm (V c main_v38) (V c main_v41) (V c main_v48) (V c main_arg10) (V c main_arg11)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128) hz1]
  obtain ⟨e0, e1, e2, e3, e4, e5, e6, e7⟩ := idx_facts t
  funext j
  obtain ⟨r, q, rfl⟩ : ∃ (r : Fin 5000) (q : Fin 128), j = ix2 r q := ⟨j 0, j 1, eq_ix2 j⟩
  refine (pay_at (iblk3 V c 0 t) (iblk3 V c 1 t) (iblk3 V c 2 t) (iblk3 V c 3 t) (iblk3 V c 4 t) r q).trans ?_
  have hA : iblk3 V c 0 t (ix2 r q) = V c main_v38 (ix2 ((((cfg3.win 5).blk t).view.emb (ix2 r q)) 0) ((((cfg3.win 5).blk t).view.emb (ix2 r q)) 1)) := by
    show V c main_v38 (((cfg3.win 0).blk t).view.emb (ix2 r q)) = _
    refine congrArg (V c main_v38) (funext fun a => Fin.ext ?_)
    match a with
    | ⟨0, _⟩ => show win3_0.index t (0 : Fin 2) * 5000 + 1 * r.val = win3_5.index t (0 : Fin 2) * 5000 + 1 * r.val; omega
    | ⟨1, _⟩ => show win3_0.index t (1 : Fin 2) * 128 + 1 * q.val = win3_5.index t (1 : Fin 2) * 128 + 1 * q.val; omega
  have h1 : iblk3 V c 1 t (ix1 q) = V c main_v41 (ix1 ((((cfg3.win 5).blk t).view.emb (ix2 r q)) 1)) := by
    show V c main_v41 (((cfg3.win 1).blk t).view.emb (ix1 q)) = _
    refine congrArg (V c main_v41) (funext fun a => Fin.ext ?_)
    match a with
    | ⟨0, _⟩ => show win3_1.index t (0 : Fin 1) * 128 + 1 * q.val = win3_5.index t (1 : Fin 2) * 128 + 1 * q.val; omega
  have h2 : iblk3 V c 2 t (ix1 q) = V c main_v48 (ix1 ((((cfg3.win 5).blk t).view.emb (ix2 r q)) 1)) := by
    show V c main_v48 (((cfg3.win 2).blk t).view.emb (ix1 q)) = _
    refine congrArg (V c main_v48) (funext fun a => Fin.ext ?_)
    match a with
    | ⟨0, _⟩ => show win3_2.index t (0 : Fin 1) * 128 + 1 * q.val = win3_5.index t (1 : Fin 2) * 128 + 1 * q.val; omega
  have h3 : iblk3 V c 3 t (ix1 q) = V c main_arg10 (ix1 ((((cfg3.win 5).blk t).view.emb (ix2 r q)) 1)) := by
    show V c main_arg10 (((cfg3.win 3).blk t).view.emb (ix1 q)) = _
    refine congrArg (V c main_arg10) (funext fun a => Fin.ext ?_)
    match a with
    | ⟨0, _⟩ => show win3_3.index t (0 : Fin 1) * 128 + 1 * q.val = win3_5.index t (1 : Fin 2) * 128 + 1 * q.val; omega
  have h4 : iblk3 V c 4 t (ix1 q) = V c main_arg11 (ix1 ((((cfg3.win 5).blk t).view.emb (ix2 r q)) 1)) := by
    show V c main_arg11 (((cfg3.win 4).blk t).view.emb (ix1 q)) = _
    refine congrArg (V c main_arg11) (funext fun a => Fin.ext ?_)
    match a with
    | ⟨0, _⟩ => show win3_4.index t (0 : Fin 1) * 128 + 1 * q.val = win3_5.index t (1 : Fin 2) * 128 + 1 * q.val; omega
  rw [hA, h1, h2, h3, h4]
  rfl

/-- An entry of the table is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v49).slice (win3_5.rect t)).set ↔ _
  rw [View.set_slice_whole, Rect.mem_set_unit]
  exact Iff.rfl

/-- Row p of the table lies in the block of grid point p / 5000: the ten blocks cover the table. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 5000 < 10 := by omega
  obtain ⟨-, -, -, -, -, -, e6, e7⟩ := idx_facts ⟨(i 0).val / 5000, ht⟩
  have e6' : win3_5.index (⟨(i 0).val / 5000, ht⟩ : Fin cfg3.N) (0 : Fin 2) = (i 0).val / 5000 := e6
  refine ⟨⟨(i 0).val / 5000, ht⟩, flush3_5 _, ?_⟩
  rw [mem_blk]
  intro a
  match a with
  | ⟨0, _⟩ =>
    show win3_5.index (⟨(i 0).val / 5000, ht⟩ : Fin cfg3.N) (0 : Fin 2) * 5000 ≤ (i 0).val ∧ (i 0).val < win3_5.index (⟨(i 0).val / 5000, ht⟩ : Fin cfg3.N) (0 : Fin 2) * 5000 + 5000
    rw [e6']; omega
  | ⟨1, _⟩ =>
    show win3_5.index (⟨(i 0).val / 5000, ht⟩ : Fin cfg3.N) (1 : Fin 2) * 128 ≤ (i 1).val ∧ (i 1).val < win3_5.index (⟨(i 0).val / 5000, ht⟩ : Fin cfg3.N) (1 : Fin 2) * 128 + 128
    rw [e7]; omega

/-- The array the region leaves is the normalised table. -/
theorem final (c : Dev nD) :
    (dat3 V c).arrAt 5 cfg3.N = norm (V c main_v38) (V c main_v41) (V c main_v48) (V c main_arg10) (V c main_arg11) :=
  (dat3 V c).arrAt_eq_of_cover 5 _ (fun t _ => flushed V c t) cover

end Cert.KernelIdeal.Reg3

end
-- ==== Proof.KernelValue.lean ====
/-
  The kernel program's result, as the layer of the launch contents.

  Region by region: the table a region leaves is the specification's table of what the region found (the four region
  modules); what it found is what the stretch before it computed from the table the region before that left, or an
  argument array nothing has written. Chained from the launch:

    region 0 leaves stage 1 of the launch contents,
    region 1 leaves stage 2 of that, with its own column statistics,
    region 2 leaves stage 3 of that,
    region 3 leaves stage 4 of that: the layer.
-/
import proofs.«154165_j23673859736036_1_alg».proof.Proof.KernelIdealRun
import proofs.«154165_j23673859736036_1_alg».proof.Proof.KernelCarry
import proofs.«154165_j23673859736036_1_alg».proof.Proof.KernelReads
import proofs.«154165_j23673859736036_1_alg».proof.Proof.Reg0Value
import proofs.«154165_j23673859736036_1_alg».proof.Proof.Reg1Value
import proofs.«154165_j23673859736036_1_alg».proof.Proof.Reg2Value
import proofs.«154165_j23673859736036_1_alg».proof.Proof.Reg3Value
import proofs.«154165_j23673859736036_1_alg».proof.Proof.HostForms

set_option maxRecDepth 16384

noncomputable section

namespace Cert.KernelIdeal.Val

open Idealize.ShloMosaic Idealize.ShloMosaic.TcCoe Idealize.SL.Sem
open Cert.KernelIdeal Cert.KernelIdeal.Gen Cert.KernelIdeal.GenP Cert.GinSpec
open Cert.ReferenceIdeal (Forms.st1 Forms.st2 Forms.st3 Forms.st4 Forms.layer)

variable (m : (ℓ : Loc nD τ sig) → Buf (Elt Ideal) ℓ) (ρ : Dev nD → PrngReg) (c : Dev nD)

/-- Region 0 leaves stage 1 of the launch contents. -/
theorem v16_at2 : W2 m ρ c (Proc.devRef .tc main_v16) = Forms.st1 (m ((c : Thread nD τ).loc main_arg0)) (m ((c : Thread nD τ).loc main_arg1)) (m ((c : Thread nD τ).loc main_arg2)) (m ((c : Thread nD τ).loc main_arg3)) := by
  refine (W2_arr m ρ c 4).trans ?_
  refine (Reg0.final (V1 m ρ) c).trans ?_
  rw [Carry.arg0_at1 m ρ c, Reads.v13_at1 m ρ c, Reads.v14_at1 m ρ c, Carry.arg3_at1 m ρ c]
  rfl

/-- Region 1 leaves stage 2 of region 0's table. -/
theorem v27_at4 : W4 m ρ c (Proc.devRef .tc main_v27) = Forms.st2 (Forms.st1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) := by
  refine (W4_arr m ρ c 7).trans ?_
  refine (Reg1.final (V3 m ρ) c).trans ?_
  rw [Carry.v16_at3 m ρ c, Reads.v19_at3 m ρ c, Reads.v26_at3 m ρ c, Carry.arg4_at3 m ρ c, Carry.arg5_at3 m ρ c,
    Carry.v15_at3 m ρ c, Reads.v15_at1 m ρ c, Carry.arg7_at3 m ρ c, v16_at2 m ρ c]
  rfl

/-- Region 2 leaves stage 3 of region 1's table. -/
theorem v38_at6 : W6 m ρ c (Proc.devRef .tc main_v38) = Forms.st3 (Forms.st2 (Forms.st1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) := by
  refine (W6_arr m ρ c 5).trans ?_
  refine (Reg2.final (V5 m ρ) c).trans ?_
  rw [Carry.v27_at5 m ρ c, Reads.v30_at5 m ρ c, Reads.v37_at5 m ρ c, Carry.arg8_at5 m ρ c, Carry.arg9_at5 m ρ c, v27_at4 m ρ c]
  rfl

/-- Region 3 leaves stage 4 of region 2's table: the layer of the launch contents. -/
theorem v49_at8 : W8 m ρ c (Proc.devRef .tc main_v49) = Forms.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ?_
  refine (Reg3.final (V7 m ρ) c).trans ?_
  rw [Carry.v38_at7 m ρ c, Reads.v41_at7 m ρ c, Reads.v48_at7 m ρ c, Carry.arg10_at7 m ρ c, Carry.arg11_at7 m ρ c, v38_at6 m ρ c]
  rfl

/-- The kernel program's run: it terminates, its result array holds the layer of the launch contents, and its argument arrays
    are as launched. -/
theorem run : θ_run defs (onTc (τ := τ) (main (F := Ideal))) ⟨m, fun _ => 0, ρ⟩ (fun r => ∀ c : Dev nD,
      r.2.mem ((c.tc : Thread nD τ).loc main_v49) = Forms.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (v49_at8 m ρ c), (h c).2⟩) (run_main m ρ)

end Cert.KernelIdeal.Val

end
-- ==== Proof.RefOps.lean ====
/-
  The reference program's @main as a list of host operations, cut where the layer's stages end, and its run.

  The reference is one straight line of 127 host operations. Listed in order and cut into nine chunks — the neighbour sums;
  the first affine map; column statistics; normalisation and positive part; the second affine map; statistics;
  normalisation and positive part; statistics; the closing normalisation — it runs as the fold of the operations' results
  over the launch contents: every weakly fair execution terminates with each buffer at that fold.
-/
import proofs.«154165_j23673859736036_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0–16 of @main: the neighbour sums: the edge table's two rows, a negative source index counted from the end, the gather and the scatter-add. -/
abbrev p0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem p0_sub : (p0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem p0_fresh : (p0 : List (HloOp τ sig (Elt F))).Forall fun op => op.fresh = ∅ := by
  simp only [List.Forall]; repeat' constructor

/-- Operations 17–25 of @main: the features scaled by one plus the neighbour sums, through the first affine map. -/
abbrev p1 : List (HloOp τ sig (Elt F)) :=
  [ nullary main_cst_1 (constant S_ .f32 0x3F800000#32),
    unary main_cst_1 main_v14 (broadcastInDim S50000x128 ![] bcast_S_S50000x128 : (⟨S_, .f32⟩ : BufTy).Contents (Elt F) → (⟨S50000x128, .f32⟩ : BufTy).Contents (Elt F)),
    binary main_v14 main_arg0 main_v15 (mulf : (⟨S50000x128, .f32⟩ : BufTy).Contents (Elt F) → (⟨S50000x128, .f32⟩ : BufTy).Contents (Elt F) → (⟨S50000x128, .f32⟩ : BufTy).Contents (Elt F)),
    binary main_v15 main_v13 main_v16 (addf : (⟨S50000x128, .f32⟩ : BufTy).Contents (Elt F) → (⟨S50000x128, .f32⟩ : BufTy).Contents (Elt F) → (⟨S50000x128, .f32⟩ : BufTy).Contents (Elt F)),
    unary main_arg2 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v19 (broadcastInDim S1x128 ![1] bcast_S128_S1x128_1 : (⟨S128, .f32⟩ : BufTy).Contents (Elt F) → (⟨S1x128, .f32⟩ : BufTy).Contents (Elt F)),
    unary main_v19 main_v20 (broadcastInDim S50000x128 ![0, 1] bcast_S1x128_S50000x128_0_1 : (⟨S1x128, .f32⟩ : BufTy).Contents (Elt F) → (⟨S50000x128, .f32⟩ : BufTy).Contents (Elt F)),
    binary main_v18 main_v20 main_v21 (addf : (⟨S50000x128, .f32⟩ : BufTy).Contents (Elt F) → (⟨S50000x128, .f32⟩ : BufTy).Contents (Elt F) → (⟨S50000x128, .f32⟩ : BufTy).Contents (Elt F)) ]
theorem p1_sub : (p1 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub ..⟩
theorem p1_fresh : (p1 : List (HloOp τ sig (Elt F))).Forall fun op => op.fresh = ∅ := by
  simp only [List.Forall]; repeat' constructor

/-- Operations 26–39 of @main: the first table's column means, and the column means of its squared deviations. -/
abbrev p2 : List (HloOp τ sig (Elt F)) :=
  [ nullary main_cst_2 (constant S_ .f32 0x00000000#32),
    binary main_v21 main_cst_2 main_v22 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v21 main_v26 main_v27 (subf : (⟨S50000x128, .f32⟩ : BufTy).Contents (Elt F) → (⟨S50000x128, .f32⟩ : BufTy).Contents (Elt F) → (⟨S50000x128, .f32⟩ : BufTy).Contents (Elt F)),
    binary main_v27 main_v27 main_v28 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v28 main_cst_4 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)) ]
theorem p2_sub : (p2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem p2_fresh : (p2 : List (HloOp τ sig (Elt F))).Forall fun op => op.fresh = ∅ := by
  simp only [List.Forall]; repeat' constructor

/-- Operations 40–58 of @main: the first normalisation and its positive part. -/
abbrev p3 : List (HloOp τ sig (Elt F)) :=
  [ unary main_v24 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v21 main_v33 main_v34 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v34 main_v39 main_v40 (mulf : (⟨S50000x128, .f32⟩ : BufTy).Contents (Elt F) → (⟨S50000x128, .f32⟩ : BufTy).Contents (Elt F) → (⟨S50000x128, .f32⟩ : BufTy).Contents (Elt F)),
    unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v46) (TRef.of (T := ⟨S50000x128, .f32⟩) main_call0_v0) (TRef.of (T := ⟨S50000x128, .f32⟩) main_v47) maximumf ]
theorem p3_sub : (p3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem p3_fresh : (p3 : List (HloOp τ sig (Elt F))).Forall fun op => op.fresh = ∅ := by
  simp only [List.Forall]; repeat' constructor

/-- Operations 59–63 of @main: the second affine map. -/
abbrev p4 : List (HloOp τ sig (Elt F)) :=
  [ unary main_arg6 main_v48 ((transpose S128x128 [1, 0] · transposes_S128x128_S128x128_1_0) : (⟨S128x128, .f32⟩ : BufTy).Contents (Elt F) → (⟨S128x128, .f32⟩ : BufTy).Contents (Elt F)),
    binary main_v47 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)) ]
theorem p4_sub : (p4 : List (HloOp τ sig (Elt F))).Forall fun op => op.bufs ⊆ tcRefs τ sig :=
  ⟨unary_bufs_sub .., binary_bufs_sub .., unary_bufs_sub .., unary_bufs_sub .., binary_bufs_sub ..⟩
theorem p4_fresh : (p4 : List (HloOp τ sig (Elt F))).Forall fun op => op.fresh = ∅ := by
  simp only [List.Forall]; repeat' constructor

/-- Operations 64–77 of @main: the second table's column statistics. -/
abbrev p5 : List (HloOp τ sig (Elt F)) :=
  [ nullary main_cst_7 (constant S_ .f32 0x00000000#32),
    binary main_v52 main_cst_7 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v52 main_v57 main_v58 (subf : (⟨S50000x128, .f32⟩ : BufTy).Contents (Elt F) → (⟨S50000x128, .f32⟩ : BufTy).Contents (Elt F) → (⟨S50000x128, .f32⟩ : BufTy).Contents (Elt F)),
    binary main_v58 main_v58 main_v59 (mulf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v59 main_cst_9 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)) ]
theorem p5_sub : (p5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem p5_fresh : (p5 : List (HloOp τ sig (Elt F))).Forall fun op => op.fresh = ∅ := by
  simp only [List.Forall]; repeat' constructor

/-- Operations 78–96 of @main: the second normalisation and its positive part. -/
abbrev p6 : List (HloOp τ sig (Elt F)) :=
  [ unary main_v55 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v52 main_v64 main_v65 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v65 main_v70 main_v71 (mulf : (⟨S50000x128, .f32⟩ : BufTy).Contents (Elt F) → (⟨S50000x128, .f32⟩ : BufTy).Contents (Elt F) → (⟨S50000x128, .f32⟩ : BufTy).Contents (Elt F)),
    unary main_arg8 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (mulf : (⟨S50000x128, .f32⟩ : BufTy).Contents (Elt F) → (⟨S50000x128, .f32⟩ : BufTy).Contents (Elt F) → (⟨S50000x128, .f32⟩ : BufTy).Contents (Elt F)),
    unary main_arg9 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v74 main_v76 main_v77 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v77) (TRef.of (T := ⟨S50000x128, .f32⟩) main_call1_v0) (TRef.of (T := ⟨S50000x128, .f32⟩) main_v78) maximumf ]
theorem p6_sub : (p6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem p6_fresh : (p6 : List (HloOp τ sig (Elt F))).Forall fun op => op.fresh = ∅ := by
  simp only [List.Forall]; repeat' constructor

/-- Operations 97–110 of @main: the third table's column statistics. -/
abbrev p7 : List (HloOp τ sig (Elt F)) :=
  [ nullary main_cst_12 (constant S_ .f32 0x00000000#32),
    binary main_v78 main_cst_12 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v78 main_v83 main_v84 (subf : (⟨S50000x128, .f32⟩ : BufTy).Contents (Elt F) → (⟨S50000x128, .f32⟩ : BufTy).Contents (Elt F) → (⟨S50000x128, .f32⟩ : BufTy).Contents (Elt F)),
    binary main_v84 main_v84 main_v85 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    binary main_v85 main_cst_14 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_15 (constant S_ .f32 0x47435000#32),
    unary main_cst_15 main_v87 (broadcastInDim S128 ![] bcast_S_S128 : (⟨S_, .f32⟩ : BufTy).Contents (Elt F) → (⟨S128, .f32⟩ : BufTy).Contents (Elt F)),
    binary main_v86 main_v87 main_v88 (Host.divf : (⟨S128, .f32⟩ : BufTy).Contents (Elt F) → (⟨S128, .f32⟩ : BufTy).Contents (Elt F) → (⟨S128, .f32⟩ : BufTy).Contents (Elt F)) ]
theorem p7_sub : (p7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem p7_fresh : (p7 : List (HloOp τ sig (Elt F))).Forall fun op => op.fresh = ∅ := by
  simp only [List.Forall]; repeat' constructor

/-- Operations 111–126 of @main: the closing normalisation. -/
abbrev p8 : List (HloOp τ sig (Elt F)) :=
  [ unary main_v81 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v78 main_v90 main_v91 (subf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3727C5AC#32),
    unary main_cst_16 main_v92 (broadcastInDim S128 ![] bcast_S_S128 : (⟨S_, .f32⟩ : BufTy).Contents (Elt F) → (⟨S128, .f32⟩ : BufTy).Contents (Elt F)),
    binary main_v88 main_v92 main_v93 (addf : (⟨S128, .f32⟩ : BufTy).Contents (Elt F) → (⟨S128, .f32⟩ : BufTy).Contents (Elt F) → (⟨S128, .f32⟩ : BufTy).Contents (Elt F)),
    unary main_v93 main_v94 (Host.rsqrt : (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v91 main_v96 main_v97 (mulf : (⟨S50000x128, .f32⟩ : BufTy).Contents (Elt F) → (⟨S50000x128, .f32⟩ : BufTy).Contents (Elt F) → (⟨S50000x128, .f32⟩ : BufTy).Contents (Elt F)),
    unary main_arg10 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (mulf : (⟨S50000x128, .f32⟩ : BufTy).Contents (Elt F) → (⟨S50000x128, .f32⟩ : BufTy).Contents (Elt F) → (⟨S50000x128, .f32⟩ : BufTy).Contents (Elt F)),
    unary main_arg11 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v100 main_v102 main_v103 (addf : (⟨S50000x128, .f32⟩ : BufTy).Contents (Elt F) → (⟨S50000x128, .f32⟩ : BufTy).Contents (Elt F) → (⟨S50000x128, .f32⟩ : BufTy).Contents (Elt F)) ]
theorem p8_sub : (p8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem p8_fresh : (p8 : List (HloOp τ sig (Elt F))).Forall fun op => op.fresh = ∅ := by
  simp only [List.Forall]; repeat' constructor

/-- @main's operations, in order: the nine chunks one after the other. -/
abbrev ops : List (HloOp τ sig (Elt F)) := p0 ++ (p1 ++ (p2 ++ (p3 ++ (p4 ++ (p5 ++ (p6 ++ (p7 ++ (p8))))))))

set_option maxRecDepth 8192 in
set_option maxHeartbeats 4000000 in
/-- @main is the sequence of its operations (a called function's operations standing in its call's place). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.mpr ⟨p0_sub, List.forall_append.mpr ⟨p1_sub, List.forall_append.mpr ⟨p2_sub, List.forall_append.mpr ⟨p3_sub, List.forall_append.mpr ⟨p4_sub, List.forall_append.mpr ⟨p5_sub, List.forall_append.mpr ⟨p6_sub, List.forall_append.mpr ⟨p7_sub, p8_sub⟩⟩⟩⟩⟩⟩⟩⟩

/-- No operation allocates a buffer. -/
theorem ops_fresh : (ops : List (HloOp τ sig (Elt F))).Forall fun op => op.fresh = ∅ :=
  List.forall_append.mpr ⟨p0_fresh, List.forall_append.mpr ⟨p1_fresh, List.forall_append.mpr ⟨p2_fresh, List.forall_append.mpr ⟨p3_fresh, List.forall_append.mpr ⟨p4_fresh, List.forall_append.mpr ⟨p5_fresh, List.forall_append.mpr ⟨p6_fresh, List.forall_append.mpr ⟨p7_fresh, p8_fresh⟩⟩⟩⟩⟩⟩⟩⟩

/-- The run: every weakly fair execution of @main terminates with every buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.RefStages.lean ====
/-
  The reference program's host operations, evaluated chunk by chunk.

  The fold of the 127 operations over the launch contents is the fold of the nine chunks one after another; write U0 for
  the launch contents and U1, …, U9 for the buffer contents after each chunk (each named, so that a chunk is read against what
  it found without opening the chunks before it). Within a chunk every result is a composition of
  a few host operations of the buffers the chunk found, and that composition is one of the shared host forms: the neighbour
  sums, an affine map, the column means and variances, a normalisation followed or not by the positive part. A buffer a chunk
  does not write it leaves as it found it; the argument arrays are written by no chunk at all.
-/
import proofs.«154165_j23673859736036_1_alg».proof.Proof.RefOps
import proofs.«154165_j23673859736036_1_alg».proof.Proof.HostForms

set_option maxRecDepth 16384

noncomputable section

namespace Cert.ReferenceIdeal.Hand

open Cert.ReferenceIdeal Cert.ReferenceIdeal.Gen Cert.ReferenceIdeal.Forms
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## The buffer contents after each chunk -/

abbrev U0 : Valuation τ sig (Elt F) := launchContents m c
def U1 : Valuation τ sig (Elt F) := after p0 (U0 m c)
def U2 : Valuation τ sig (Elt F) := after p1 (U1 m c)
def U3 : Valuation τ sig (Elt F) := after p2 (U2 m c)
def U4 : Valuation τ sig (Elt F) := after p3 (U3 m c)
def U5 : Valuation τ sig (Elt F) := after p4 (U4 m c)
def U6 : Valuation τ sig (Elt F) := after p5 (U5 m c)
def U7 : Valuation τ sig (Elt F) := after p6 (U6 m c)
def U8 : Valuation τ sig (Elt F) := after p7 (U7 m c)
def U9 : Valuation τ sig (Elt F) := after p8 (U8 m c)

/-- The fold of all the operations is the fold of the chunks in turn. -/
theorem after_ops : after ops (launchContents m c) = U9 m c := by
  simp only [ops, StableHlo.after_append]
  rfl

/-! ## What a chunk does not write it keeps -/

/-- No operation of the list writes the buffer. -/
abbrev NoWrite (l : List (HloOp τ sig (Elt F))) (b : Ref sig .tc) : Prop :=
  l.Forall fun op => Proc.devRef (τ := τ) .tc b ∉ op.writes

/-- Decides `NoWrite` for a literal chunk and a literal buffer: each operation writes one buffer, another one. -/
macro "no_write" : tactic => `(tactic| (
  simp only [p0, p1, p2, p3, p4, p5, p6, p7, p8, TRef.nullary, TRef.unary, TRef.binary, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

theorem keep (l : List (HloOp τ sig (Elt F))) (V : Valuation τ sig (Elt F)) (b : Ref sig .tc) (h : NoWrite l b) :
    after l V (Proc.devRef .tc b) = V (Proc.devRef .tc b) :=
  StableHlo.after_of_forall_not_mem (b := Proc.devRef .tc b) _ _ (List.forall_iff_forall_mem.mp h)

/-- An argument array, which no chunk writes, holds its launch contents at every boundary. -/
theorem arg_at (b : Ref sig .tc) (h0 : NoWrite (F := F) p0 b) (h1 : NoWrite (F := F) p1 b) (h2 : NoWrite (F := F) p2 b)
    (h3 : NoWrite (F := F) p3 b) (h4 : NoWrite (F := F) p4 b) (h5 : NoWrite (F := F) p5 b) (h6 : NoWrite (F := F) p6 b)
    (h7 : NoWrite (F := F) p7 b) (h8 : NoWrite (F := F) p8 b) :
    U1 m c (Proc.devRef .tc b) = m ((c.tc : Thread nD τ).loc b) ∧ U2 m c (Proc.devRef .tc b) = m ((c.tc : Thread nD τ).loc b)
    ∧ U3 m c (Proc.devRef .tc b) = m ((c.tc : Thread nD τ).loc b) ∧ U4 m c (Proc.devRef .tc b) = m ((c.tc : Thread nD τ).loc b)
    ∧ U5 m c (Proc.devRef .tc b) = m ((c.tc : Thread nD τ).loc b) ∧ U6 m c (Proc.devRef .tc b) = m ((c.tc : Thread nD τ).loc b)
    ∧ U7 m c (Proc.devRef .tc b) = m ((c.tc : Thread nD τ).loc b) ∧ U8 m c (Proc.devRef .tc b) = m ((c.tc : Thread nD τ).loc b)
    ∧ U9 m c (Proc.devRef .tc b) = m ((c.tc : Thread nD τ).loc b) := by
  have e1 : U1 m c (Proc.devRef .tc b) = m ((c.tc : Thread nD τ).loc b) := keep p0 (U0 m c) b h0
  have e2 := (keep p1 (U1 m c) b h1).trans e1
  have e3 := (keep p2 (U2 m c) b h2).trans e2
  have e4 := (keep p3 (U3 m c) b h3).trans e3
  have e5 := (keep p4 (U4 m c) b h4).trans e4
  have e6 := (keep p5 (U5 m c) b h5).trans e5
  have e7 := (keep p6 (U6 m c) b h6).trans e6
  have e8 := (keep p7 (U7 m c) b h7).trans e7
  have e9 := (keep p8 (U8 m c) b h8).trans e8
  exact ⟨e1, e2, e3, e4, e5, e6, e7, e8, e9⟩

def arg0 := arg_at m c main_arg0 (by no_write) (by no_write) (by no_write) (by no_write) (by no_write) (by no_write) (by no_write) (by no_write) (by no_write)
def arg1 := arg_at m c main_arg1 (by no_write) (by no_write) (by no_write) (by no_write) (by no_write) (by no_write) (by no_write) (by no_write) (by no_write)
def arg2 := arg_at m c main_arg2 (by no_write) (by no_write) (by no_write) (by no_write) (by no_write) (by no_write) (by no_write) (by no_write) (by no_write)
def arg3 := arg_at m c main_arg3 (by no_write) (by no_write) (by no_write) (by no_write) (by no_write) (by no_write) (by no_write) (by no_write) (by no_write)
def arg4 := arg_at m c main_arg4 (by no_write) (by no_write) (by no_write) (by no_write) (by no_write) (by no_write) (by no_write) (by no_write) (by no_write)
def arg5 := arg_at m c main_arg5 (by no_write) (by no_write) (by no_write) (by no_write) (by no_write) (by no_write) (by no_write) (by no_write) (by no_write)
def arg6 := arg_at m c main_arg6 (by no_write) (by no_write) (by no_write) (by no_write) (by no_write) (by no_write) (by no_write) (by no_write) (by no_write)
def arg7 := arg_at m c main_arg7 (by no_write) (by no_write) (by no_write) (by no_write) (by no_write) (by no_write) (by no_write) (by no_write) (by no_write)
def arg8 := arg_at m c main_arg8 (by no_write) (by no_write) (by no_write) (by no_write) (by no_write) (by no_write) (by no_write) (by no_write) (by no_write)
def arg9 := arg_at m c main_arg9 (by no_write) (by no_write) (by no_write) (by no_write) (by no_write) (by no_write) (by no_write) (by no_write) (by no_write)
def arg10 := arg_at m c main_arg10 (by no_write) (by no_write) (by no_write) (by no_write) (by no_write) (by no_write) (by no_write) (by no_write) (by no_write)
def arg11 := arg_at m c main_arg11 (by no_write) (by no_write) (by no_write) (by no_write) (by no_write) (by no_write) (by no_write) (by no_write) (by no_write)

/-- A stage's table, read by the chunk after the next: the statistics chunk between them does not write it. -/
theorem v21_at3 : U3 m c (Proc.devRef .tc main_v21) = U2 m c (Proc.devRef .tc main_v21) := keep p2 (U2 m c) main_v21 (by no_write)
theorem v52_at6 : U6 m c (Proc.devRef .tc main_v52) = U5 m c (Proc.devRef .tc main_v52) := keep p5 (U5 m c) main_v52 (by no_write)
theorem v78_at8 : U8 m c (Proc.devRef .tc main_v78) = U7 m c (Proc.devRef .tc main_v78) := keep p7 (U7 m c) main_v78 (by no_write)

/-! ## What each chunk computes -/

set_option maxHeartbeats 2000000 in
/-- The first chunk leaves the neighbour sums. -/
theorem r13 : U1 m c (Proc.devRef .tc main_v13) = agg (U0 m c (Proc.devRef .tc main_arg0)) (U0 m c (Proc.devRef .tc main_arg1)) := by
  show after p0 (U0 m c) (Proc.devRef .tc main_v13) = _
  simp only [p0]
  after_results_simp
  rfl

set_option maxHeartbeats 1000000 in
/-- The second chunk leaves the affine map of (one times the features, plus the neighbour sums). -/
theorem r21 : U2 m c (Proc.devRef .tc main_v21) = hLin (addf (mulf ones (U1 m c (Proc.devRef .tc main_arg0))) (U1 m c (Proc.devRef .tc main_v13))) (wT (U1 m c (Proc.devRef .tc main_arg2))) (U1 m c (Proc.devRef .tc main_arg3)) := by
  show after p1 (U1 m c) (Proc.devRef .tc main_v21) = _
  simp only [p1]
  after_results
  rfl

set_option maxHeartbeats 1000000 in
/-- The third chunk leaves the first table's column means. -/
theorem r24 : U3 m c (Proc.devRef .tc main_v24) = colMean (U2 m c (Proc.devRef .tc main_v21)) := by
  show after p2 (U2 m c) (Proc.devRef .tc main_v24) = _
  simp only [p2]
  after_results
  rfl

set_option maxHeartbeats 1000000 in
/-- The third chunk leaves the first table's column variances about those means. -/
theorem r31 : U3 m c (Proc.devRef .tc main_v31) = colVar (U2 m c (Proc.devRef .tc main_v21)) (colMean (U2 m c (Proc.devRef .tc main_v21))) := by
  show after p2 (U2 m c) (Proc.devRef .tc main_v31) = _
  simp only [p2]
  after_results
  rfl

set_option maxHeartbeats 2000000 in
/-- The fourth chunk leaves the positive part of the first normalisation. -/
theorem r47 : U4 m c (Proc.devRef .tc main_v47) = hRelu (hNorm (U3 m c (Proc.devRef .tc main_v21)) (U3 m c (Proc.devRef .tc main_v24)) (U3 m c (Proc.devRef .tc main_v31)) (U3 m c (Proc.devRef .tc main_arg4)) (U3 m c (Proc.devRef .tc main_arg5))) := by
  show after p3 (U3 m c) (Proc.devRef .tc main_v47) = _
  simp only [p3]
  after_results_simp
  rfl

set_option maxHeartbeats 1000000 in
/-- The fifth chunk leaves the second affine map. -/
theorem r52 : U5 m c (Proc.devRef .tc main_v52) = hLin (U4 m c (Proc.devRef .tc main_v47)) (wT (U4 m c (Proc.devRef .tc main_arg6))) (U4 m c (Proc.devRef .tc main_arg7)) := by
  show after p4 (U4 m c) (Proc.devRef .tc main_v52) = _
  simp only [p4]
  after_results
  rfl

set_option maxHeartbeats 1000000 in
/-- The sixth chunk leaves the second table's column means. -/
theorem r55 : U6 m c (Proc.devRef .tc main_v55) = colMean (U5 m c (Proc.devRef .tc main_v52)) := by
  show after p5 (U5 m c) (Proc.devRef .tc main_v55) = _
  simp only [p5]
  after_results
  rfl

set_option maxHeartbeats 1000000 in
/-- The sixth chunk leaves the second table's column variances about those means. -/
theorem r62 : U6 m c (Proc.devRef .tc main_v62) = colVar (U5 m c (Proc.devRef .tc main_v52)) (colMean (U5 m c (Proc.devRef .tc main_v52))) := by
  show after p5 (U5 m c) (Proc.devRef .tc main_v62) = _
  simp only [p5]
  after_results
  rfl

set_option maxHeartbeats 2000000 in
/-- The seventh chunk leaves the positive part of the second normalisation. -/
theorem r78 : U7 m c (Proc.devRef .tc main_v78) = hRelu (hNorm (U6 m c (Proc.devRef .tc main_v52)) (U6 m c (Proc.devRef .tc main_v55)) (U6 m c (Proc.devRef .tc main_v62)) (U6 m c (Proc.devRef .tc main_arg8)) (U6 m c (Proc.devRef .tc main_arg9))) := by
  show after p6 (U6 m c) (Proc.devRef .tc main_v78) = _
  simp only [p6]
  after_results_simp
  rfl

set_option maxHeartbeats 1000000 in
/-- The eighth chunk leaves the third table's column means. -/
theorem r81 : U8 m c (Proc.devRef .tc main_v81) = colMean (U7 m c (Proc.devRef .tc main_v78)) := by
  show after p7 (U7 m c) (Proc.devRef .tc main_v81) = _
  simp only [p7]
  after_results
  rfl

set_option maxHeartbeats 1000000 in
/-- The eighth chunk leaves the third table's column variances about those means. -/
theorem r88 : U8 m c (Proc.devRef .tc main_v88) = colVar (U7 m c (Proc.devRef .tc main_v78)) (colMean (U7 m c (Proc.devRef .tc main_v78))) := by
  show after p7 (U7 m c) (Proc.devRef .tc main_v88) = _
  simp only [p7]
  after_results
  rfl

set_option maxHeartbeats 2000000 in
/-- The last chunk leaves the closing normalisation. -/
theorem r103 : U9 m c (Proc.devRef .tc main_v103) = hNorm (U8 m c (Proc.devRef .tc main_v78)) (U8 m c (Proc.devRef .tc main_v81)) (U8 m c (Proc.devRef .tc main_v88)) (U8 m c (Proc.devRef .tc main_arg10)) (U8 m c (Proc.devRef .tc main_arg11)) := by
  show after p8 (U8 m c) (Proc.devRef .tc main_v103) = _
  simp only [p8]
  after_results_simp
  rfl

end Cert.ReferenceIdeal.Hand

end
-- ==== Proof.RefValue.lean ====
/-
  The reference program's result, as the layer of its launch contents.

  Chunk by chunk the reference's buffers hold the shared host forms stacked on the launch contents. At the ideal values
  each host form is the specification's arithmetic — the host's affine map is the sum of products, its normalisation and
  positive part are entrywise, and the factor one the reference scales its input by changes nothing — so the table after
  the second chunk is stage 1 of the launch contents, after the fifth stage 2, after the seventh stage 3, and the result
  after the last chunk is the layer.
-/
import proofs.«154165_j23673859736036_1_alg».proof.Proof.RefStages

set_option maxRecDepth 16384

noncomputable section

namespace Cert.ReferenceIdeal.RefValue

open Cert.ReferenceIdeal Cert.ReferenceIdeal.Gen Cert.ReferenceIdeal.Forms Cert.ReferenceIdeal.Hand
open Idealize.ShloMosaic Idealize.ShloMosaic.TcCoe Idealize.SL.Sem Idealize.ShloMosaic.StableHlo

variable (m : (ℓ : Loc nD τ sig) → Buf (Elt Ideal) ℓ) (c : Dev nD)

/-- After the second chunk the first table is stage 1 of the launch contents. -/
theorem e21 : U2 m c (Proc.devRef .tc main_v21) = st1 (m ((c.tc : Thread nD τ).loc main_arg0)) (m ((c.tc : Thread nD τ).loc main_arg1)) (m ((c.tc : Thread nD τ).loc main_arg2)) (m ((c.tc : Thread nD τ).loc main_arg3)) := by
  rw [r21, r13, (arg0 m c).1, (arg2 m c).1, (arg3 m c).1, ones_mul, addf_eq, hLin_eq]
  rfl

/-- After the fifth chunk the second table is stage 2 of the first. -/
theorem e52 : U5 m c (Proc.devRef .tc main_v52) = st2 (st1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) := by
  rw [r52, r47, v21_at3, r24, r31, e21, (arg4 m c).2.2.1, (arg5 m c).2.2.1, (arg6 m c).2.2.2.1, (arg7 m c).2.2.2.1, hNorm_eq, hRelu_eq, hLin_eq]
  rfl

/-- After the seventh chunk the third table is stage 3 of the second. -/
theorem e78 : U7 m c (Proc.devRef .tc main_v78) = st3 (st2 (st1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := by
  rw [r78, v52_at6, r55, r62, e52, (arg8 m c).2.2.2.2.2.1, (arg9 m c).2.2.2.2.2.1, hNorm_eq, hRelu_eq]
  rfl

/-- After the last chunk the result is the layer of the launch contents. -/
theorem e103 : U9 m c (Proc.devRef .tc main_v103) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [r103, v78_at8, r81, r88, e78, (arg10 m c).2.2.2.2.2.2.2.1, (arg11 m c).2.2.2.2.2.2.2.1, hNorm_eq]
  rfl

/-- The reference's run: it terminates, its result array holds the layer of the launch contents, and its argument arrays are
    as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v103) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c main_v103).trans ((congrFun (after_ops m c) _).trans (e103 m c)),
     (h c main_arg0).trans ((congrFun (after_ops m c) _).trans (arg0 m c).2.2.2.2.2.2.2.2),
     (h c main_arg1).trans ((congrFun (after_ops m c) _).trans (arg1 m c).2.2.2.2.2.2.2.2),
     (h c main_arg2).trans ((congrFun (after_ops m c) _).trans (arg2 m c).2.2.2.2.2.2.2.2),
     (h c main_arg3).trans ((congrFun (after_ops m c) _).trans (arg3 m c).2.2.2.2.2.2.2.2),
     (h c main_arg4).trans ((congrFun (after_ops m c) _).trans (arg4 m c).2.2.2.2.2.2.2.2),
     (h c main_arg5).trans ((congrFun (after_ops m c) _).trans (arg5 m c).2.2.2.2.2.2.2.2),
     (h c main_arg6).trans ((congrFun (after_ops m c) _).trans (arg6 m c).2.2.2.2.2.2.2.2),
     (h c main_arg7).trans ((congrFun (after_ops m c) _).trans (arg7 m c).2.2.2.2.2.2.2.2),
     (h c main_arg8).trans ((congrFun (after_ops m c) _).trans (arg8 m c).2.2.2.2.2.2.2.2),
     (h c main_arg9).trans ((congrFun (after_ops m c) _).trans (arg9 m c).2.2.2.2.2.2.2.2),
     (h c main_arg10).trans ((congrFun (after_ops m c) _).trans (arg10 m c).2.2.2.2.2.2.2.2),
     (h c main_arg11).trans ((congrFun (after_ops m c) _).trans (arg11 m c).2.2.2.2.2.2.2.2)⟩)
    (run_after m ρ)

end Cert.ReferenceIdeal.RefValue

end
-- ==== Proof.lean ====
/-
  A graph-isomorphism layer on 50000 nodes with 128 features: the kernel program against its reference, over the extended reals.

  Both programs add to each node's features the sum of its neighbours' (the same host gather and scatter-add), apply an
  affine map, normalise every column by that table's own mean and variance and take the positive part, apply a second affine
  map, normalise and take the positive part again, and normalise once more. The reference does all of it on the host; the
  kernel program does the sums, the statistics and the transposes on the host and the four dense steps in four regions that
  walk the node table in ten blocks of 5000 rows.

  What joins the two sides: an affine map is the same sum of products whether a region computes it block by block (through
  a narrower float format, which at the ideal values is the identity) or the host computes it whole; the normalisation and
  the positive part are entrywise; the reference's factor one changes nothing; and the column statistics are the same host
  operations applied to equal tables. No law used needs the inputs finite, so the precondition is never opened.

  The frames of the two kernel programs are the generated frame certificates; the reference's run is the fold of its 127 host
  operations, evaluated chunk by chunk, and its frame is that run with the result dropped. The idealised kernel program is the
  printed program read at the ideal values: nothing was rewritten, so there is nothing to preserve.
-/
import proofs.«154165_j23673859736036_1_alg».proof.Defs
import proofs.«154165_j23673859736036_1_alg».proof.Proof.Gen.Kernel
import proofs.«154165_j23673859736036_1_alg».proof.Proof.Gen.KernelIdeal
import proofs.«154165_j23673859736036_1_alg».proof.Proof.Gen.ReferenceIdeal
import proofs.«154165_j23673859736036_1_alg».proof.Proof.Gen.Pre_finite_inputs
import proofs.«154165_j23673859736036_1_alg».proof.Proof.KernelFrameP
import proofs.«154165_j23673859736036_1_alg».proof.Proof.KernelIdealFrameP
import proofs.«154165_j23673859736036_1_alg».proof.Proof.KernelValue
import proofs.«154165_j23673859736036_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel (hKernel := Cert.Kernel.Gen.facts) (hPre_finite_inputs := Cert.Pre_finite_inputs.Gen.facts) :=
  fun m ρ _ => Cert.Kernel.GenP.frame m ρ

/-- So does the kernel program read at the ideal values. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and leaves its arguments as launched: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the arguments both programs end with the layer of those arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6, a7, a8, a9, a10, a11⟩ := hagree c
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
